-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S5000x64 : Shape := ⟨2, ![5000, 64]⟩
abbrev S5000x1 : Shape := ⟨2, ![5000, 1]⟩
abbrev S800000x64 : Shape := ⟨2, ![800000, 64]⟩

abbrev nBuf : Space → Nat
  | .hbm => 65
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x1, .f32⟩
  | .hbm, ⟨33, _⟩ => ⟨S1x64, .f32⟩
  | .hbm, ⟨34, _⟩ => ⟨S1x64, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v39) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S50000x1, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S_, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x64, .f32⟩
  | .hbm, ⟨83, _⟩ => ⟨S50000x64, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x64, .f32⟩
  | .hbm, ⟨93, _⟩ => ⟨S_, .f32⟩
  | .hbm, ⟨94, _⟩ => ⟨S50000x64, .f32⟩
  | .hbm, ⟨95, _⟩ => ⟨S800000x1, .i32⟩
  | .hbm, ⟨96, _⟩ => ⟨S50000x64, .f32⟩
  | .hbm, ⟨97, _⟩ => ⟨S50000x1, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_cst_13 : Ref sig .tc := ⟨.hbm, 74, rfl⟩
abbrev main_call4_v0 : Ref sig .tc := ⟨.hbm, 75, rfl⟩
abbrev main_call4_v1 : Ref sig .tc := ⟨.hbm, 76, rfl⟩
abbrev main_v44 : Ref sig .tc := ⟨.hbm, 77, rfl⟩
abbrev main_cst_14 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_c_16 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_17 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Layers.lean ====
/-
  The two row-wise layers of a graph convolution, as functions of whole arrays over the extended reals, and what the
  kernels' bodies compute on one block, read at an index.

  * `scaleRows x n`: every row of `x` times that row's entry of the column `n` (kept as `[a, 1]`):
    entry `(p, q)` is `x[p, q] · n[p, 0]`.
  * `denseRows x n w b`: the scaled rows times the weight matrix, plus the bias row (kept as `[1, b]`):
    entry `(p, q)` is `Σ j, (x[p, j] · n[p, 0]) · w[j, q] + b[0, q]`; `denseReluRows` is its maximum with zero.

  A block of rows of either is the same function of the block's rows (a row's entries depend on that row only), which is
  why a kernel that walks the rows block by block ends with the whole array at the function of the whole arrays.
-/
import Idealize.ShloMosaic.PureOps.Ideal.Laws
import Idealize.ShloMosaic.Lib.ValueIdx
import Idealize.ShloMosaic.Lib.ValueLayout
import Idealize.ShloMosaic.Lib.Pipeline.Value
import proofs.«157872_j43009802502553_1_alg».proof.Proof.LibRowOps

noncomputable section

open scoped BigOperators

namespace Cert.Gcn

open Idealize.ShloMosaic Idealize.ShloMosaic.ValueIdx

/-- Rows scaled by a column: entry `(p, q)` is `x[p, q] · n[p, 0]`. -/
def scaleRows {a b : ℕ} (x : FVec Ideal ⟨2, ![a, b]⟩ .f32) (n : FVec Ideal ⟨2, ![a, 1]⟩ .f32) : FVec Ideal ⟨2, ![a, b]⟩ .f32 :=
  fun i => x i * n (ix2 (n0 := a) (i 0) (0 : Fin 1))

/-- Scaled rows times a weight matrix plus a bias row: entry `(p, q)` is `Σ j, (x[p, j] · n[p, 0]) · w[j, q] + b[0, q]`. -/
def denseRows {a k b : ℕ} (x : FVec Ideal ⟨2, ![a, k]⟩ .f32) (n : FVec Ideal ⟨2, ![a, 1]⟩ .f32)
    (w : FVec Ideal ⟨2, ![k, b]⟩ .f32) (bias : FVec Ideal ⟨2, ![1, b]⟩ .f32) : FVec Ideal ⟨2, ![a, b]⟩ .f32 :=
  fun i => (∑ j : Fin k, (x (ix2 (n0 := a) (i 0) j) * n (ix2 (n0 := a) (i 0) (0 : Fin 1))) * w (ix2 (n1 := b) j (i 1)))
    + bias (ix2 (n1 := b) (0 : Fin 1) (i 1))

/-- The same, cut off below at zero. -/
def denseReluRows {a k b : ℕ} (x : FVec Ideal ⟨2, ![a, k]⟩ .f32) (n : FVec Ideal ⟨2, ![a, 1]⟩ .f32)
    (w : FVec Ideal ⟨2, ![k, b]⟩ .f32) (bias : FVec Ideal ⟨2, ![1, b]⟩ .f32) : FVec Ideal ⟨2, ![a, b]⟩ .f32 :=
  fun i => max (denseRows x n w bias i) (Ideal.ofBits .f32 0x00000000#32)

theorem scaleRows_apply {a b : ℕ} (x : FVec Ideal ⟨2, ![a, b]⟩ .f32) (n : FVec Ideal ⟨2, ![a, 1]⟩ .f32) (p : Fin a) (q : Fin b) :
    scaleRows x n (ix2 p q) = x (ix2 p q) * n (ix2 p (0 : Fin 1)) := rfl

theorem denseRows_apply {a k b : ℕ} (x : FVec Ideal ⟨2, ![a, k]⟩ .f32) (n : FVec Ideal ⟨2, ![a, 1]⟩ .f32)
    (w : FVec Ideal ⟨2, ![k, b]⟩ .f32) (bias : FVec Ideal ⟨2, ![1, b]⟩ .f32) (p : Fin a) (q : Fin b) :
    denseRows x n w bias (ix2 p q)
      = (∑ j : Fin k, (x (ix2 p j) * n (ix2 p (0 : Fin 1))) * w (ix2 j q)) + bias (ix2 (0 : Fin 1) q) := rfl

theorem denseReluRows_apply {a k b : ℕ} (x : FVec Ideal ⟨2, ![a, k]⟩ .f32) (n : FVec Ideal ⟨2, ![a, 1]⟩ .f32)
    (w : FVec Ideal ⟨2, ![k, b]⟩ .f32) (bias : FVec Ideal ⟨2, ![1, b]⟩ .f32) (p : Fin a) (q : Fin b) :
    denseReluRows x n w bias (ix2 p q)
      = max ((∑ j : Fin k, (x (ix2 p j) * n (ix2 p (0 : Fin 1))) * w (ix2 j q)) + bias (ix2 (0 : Fin 1) q))
          (Ideal.ofBits .f32 0x00000000#32) := rfl

/-- A `[b]` array cast to the one-row `[1, b]` reads, at `(u, q)`, the operand at `q`. -/
theorem shapeCast_b_1b_apply {α : Type} {b : ℕ} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-! ## One block's body, read at an index -/

/-- A block of rows times its column, the column cast to itself and spread over the lanes: at `(p, q)` the block's
    entry times the column's entry of row `p`. -/
theorem scaleBody_apply {a b : ℕ} (x0 : FVec Ideal ⟨2, ![a, b]⟩ .f32) (x1 : FVec Ideal ⟨2, ![a, 1]⟩ .f32)
    (h1 : (⟨2, ![a, 1]⟩ : Shape).ShapeCasts ⟨2, ![a, 1]⟩) (h2 : (⟨2, ![a, 1]⟩ : Shape).Broadcasts ⟨2, ![a, b]⟩)
    (p : Fin a) (q : Fin b) :
    mulf x0 (broadcastTo ⟨2, ![a, b]⟩ (shapeCast ⟨2, ![a, 1]⟩ x1 h1) h2) (ix2 p q) = x0 (ix2 p q) * x1 (ix2 p (0 : Fin 1)) := by
  rw [mulf_apply, Cert.RowOps.broadcastTo_a1_ab_apply, shapeCast_self]

/-- The same with the block first cast to its own shape (the identity). -/
theorem scaleBodyCast_apply {a b : ℕ} (x0 : FVec Ideal ⟨2, ![a, b]⟩ .f32) (x1 : FVec Ideal ⟨2, ![a, 1]⟩ .f32)
    (h0 : (⟨2, ![a, b]⟩ : Shape).ShapeCasts ⟨2, ![a, b]⟩)
    (h1 : (⟨2, ![a, 1]⟩ : Shape).ShapeCasts ⟨2, ![a, 1]⟩) (h2 : (⟨2, ![a, 1]⟩ : Shape).Broadcasts ⟨2, ![a, b]⟩)
    (p : Fin a) (q : Fin b) :
    mulf (shapeCast ⟨2, ![a, b]⟩ x0 h0) (broadcastTo ⟨2, ![a, b]⟩ (shapeCast ⟨2, ![a, 1]⟩ x1 h1) h2) (ix2 p q)
      = x0 (ix2 p q) * x1 (ix2 p (0 : Fin 1)) := by
  rw [shapeCast_self]; exact scaleBody_apply x0 x1 h1 h2 p q

/-- The dense body on one block: the scaled block and the weights, each narrowed (the identity on extended reals),
    multiplied into a zero accumulator, plus the bias row spread over the rows. -/
theorem denseBody_apply {a k b : ℕ} (x0 : FVec Ideal ⟨2, ![a, k]⟩ .f32) (x1 : FVec Ideal ⟨2, ![a, 1]⟩ .f32)
    (w : FVec Ideal ⟨2, ![k, b]⟩ .f32) (bias : FVec Ideal ⟨2, ![1, b]⟩ .f32)
    (h0 : (⟨2, ![a, k]⟩ : Shape).ShapeCasts ⟨2, ![a, k]⟩)
    (h1 : (⟨2, ![a, 1]⟩ : Shape).ShapeCasts ⟨2, ![a, 1]⟩) (h2 : (⟨2, ![a, 1]⟩ : Shape).Broadcasts ⟨2, ![a, k]⟩)
    (h3 : (⟨2, ![1, b]⟩ : Shape).ShapeCasts ⟨2, ![1, b]⟩) (h4 : (⟨2, ![1, b]⟩ : Shape).Broadcasts ⟨2, ![a, b]⟩)
    (hlt : FTy.bf16.bits < FTy.f32.bits)
    (wf : DotDims.WF ⟨2, ![a, k]⟩ ⟨2, ![k, b]⟩ ⟨2, ![a, b]⟩ [1] [0] [0] [1] [] [])
    (p : Fin a) (q : Fin b) :
    addf (FloatOps.matmul (⟨[1], [0], [0], [1], [], [], wf⟩ : DotDims ⟨2, ![a, k]⟩ ⟨2, ![k, b]⟩ ⟨2, ![a, b]⟩) none
        (truncf .bf16 (mulf (shapeCast ⟨2, ![a, k]⟩ x0 h0) (broadcastTo ⟨2, ![a, k]⟩ (shapeCast ⟨2, ![a, 1]⟩ x1 h1) h2)) hlt)
        (truncf .bf16 w hlt) (constant ⟨2, ![a, b]⟩ .f32 0x00000000#32))
      (broadcastTo ⟨2, ![a, b]⟩ (shapeCast ⟨2, ![1, b]⟩ bias h3) h4) (ix2 p q)
      = (∑ j : Fin k, (x0 (ix2 p j) * x1 (ix2 p (0 : Fin 1))) * w (ix2 j q)) + bias (ix2 (0 : Fin 1) q) := by
  rw [addf_apply, Cert.RowOps.matmul_apply, Cert.RowOps.rowParam_spread_apply]
  refine congrArg (· + bias (ix2 (0 : Fin 1) q)) (Finset.sum_congr rfl fun j _ => ?_)
  rw [truncf_apply, truncf_apply, scaleBodyCast_apply]

end Cert.Gcn

end
-- ==== Proof.RefLayers.lean ====
/-
  The reference's stages are the two row-wise layers. The reference spreads a normalising vector `[50000]` over the
  lanes by two broadcasts and multiplies; the kernel keeps it as a column `[50000, 1]` (a shape cast) and its body spreads
  it block by block. Read at `(p, q)` both are the entry times the vector's entry `p`. The reference's `dot_general`
  is, at `(p, q)`, the sum over `j` of the left entry `(p, j)` times the right entry `(j, q)`, which is the dense layer's sum;
  its bias `[64]` spread by two broadcasts is the one-row `[1, 64]` bias at `(0, q)`. The degree normalisations the reference
  computes a second time for its second layer are the first layer's, term for term.
-/
import proofs.«157872_j43009802502553_1_alg».proof.Proof.Gen.ReferenceIdeal.Read
import proofs.«157872_j43009802502553_1_alg».proof.Proof.Layers

set_option maxRecDepth 16384

noncomputable section

open scoped BigOperators

namespace Cert.ReferenceIdeal.Layers

open Cert.ReferenceIdeal Cert.ReferenceIdeal.Gen Cert.ReferenceIdeal.Read Idealize.ShloMosaic Idealize.ShloMosaic.TcCoe
open Idealize.ShloMosaic.ValueIdx

variable (x0 : (⟨S50000x64, .f32⟩ : BufTy).Contents (Elt Ideal)) (x1 x2 : (⟨S800000, .i32⟩ : BufTy).Contents (Elt Ideal))
  (x3 : (⟨S64x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))

/-- The second layer's source-side normalisation is the first layer's. -/
theorem normOut_again : val_main_v43 (F := Ideal) x1 = val_main_v9 (F := Ideal) x1 := rfl
/-- The second layer's destination-side normalisation is the first layer's. -/
theorem normIn_again : val_main_v46 (F := Ideal) x2 = val_main_v12 (F := Ideal) x2 := rfl

/-! ## The composed index maps, at `(p, q)` -/

theorem col13 (p : Fin 50000) (q : Fin 64) : idx_main_v13 (idx_main_v14 (ix2 p q)) = ix1 p :=
  funext fun a => Fin.ext (by match a with | ⟨0, _⟩ => rfl)
theorem col26 (p : Fin 50000) (q : Fin 64) : idx_main_v26 (idx_main_v27 (ix2 p q)) = ix1 p :=
  funext fun a => Fin.ext (by match a with | ⟨0, _⟩ => rfl)
theorem col47 (p : Fin 50000) (q : Fin 64) : idx_main_v47 (idx_main_v48 (ix2 p q)) = ix1 p :=
  funext fun a => Fin.ext (by match a with | ⟨0, _⟩ => rfl)
theorem col60 (p : Fin 50000) (q : Fin 64) : idx_main_v60 (idx_main_v61 (ix2 p q)) = ix1 p :=
  funext fun a => Fin.ext (by match a with | ⟨0, _⟩ => rfl)
theorem row30 (p : Fin 50000) (q : Fin 64) : idx_main_v30 (idx_main_v31 (ix2 p q)) = ix1 q :=
  funext fun a => Fin.ext (by match a with | ⟨0, _⟩ => rfl)
theorem row64 (p : Fin 50000) (q : Fin 64) : idx_main_v64 (idx_main_v65 (ix2 p q)) = ix1 q :=
  funext fun a => Fin.ext (by match a with | ⟨0, _⟩ => rfl)
theorem lhs29 (p : Fin 50000) (q j : Fin 64) : lidx_main_v29 (ix2 p q) j = ix2 p j :=
  funext fun a => Fin.ext (by match a with | ⟨0, _⟩ => rfl | ⟨1, _⟩ => rfl)
theorem rhs29 (p : Fin 50000) (q j : Fin 64) : ridx_main_v29 (ix2 p q) j = ix2 j q :=
  funext fun a => Fin.ext (by match a with | ⟨0, _⟩ => rfl | ⟨1, _⟩ => rfl)
theorem lhs63 (p : Fin 50000) (q j : Fin 64) : lidx_main_v63 (ix2 p q) j = ix2 p j :=
  funext fun a => Fin.ext (by match a with | ⟨0, _⟩ => rfl | ⟨1, _⟩ => rfl)
theorem rhs63 (p : Fin 50000) (q j : Fin 64) : ridx_main_v63 (ix2 p q) j = ix2 j q :=
  funext fun a => Fin.ext (by match a with | ⟨0, _⟩ => rfl | ⟨1, _⟩ => rfl)

/-! ## The layers -/

/-- Layer 1's scaled features: the rows of `x` times the source-side normalisation kept as a column. -/
theorem scale1 (h : S50000.ShapeCasts S50000x1) :
    Cert.Gcn.scaleRows (a := 50000) (b := 64) x0 (shapeCast S50000x1 (val_main_v9 (F := Ideal) x1) h) = val_main_v15 (F := Ideal) x0 x1 := by
  funext i
  obtain ⟨p, q, rfl⟩ : ∃ (p : Fin 50000) (q : Fin 64), i = ix2 p q := ⟨i 0, i 1, eq_ix2 i⟩
  rw [val_main_v15_apply, val_main_v14_apply, val_main_v13_apply, col13, Cert.Gcn.scaleRows_apply,
    Cert.RowOps.shapeCast_a_a1_apply, Ideal.mulf_def]

/-- Layer 2's scaled features: the rows of layer 1's output times the same column. -/
theorem scale2 (h : S50000.ShapeCasts S50000x1) :
    Cert.Gcn.scaleRows (a := 50000) (b := 64) (val_main_v33 (F := Ideal) x0 x1 x2 x3 x4) (shapeCast S50000x1 (val_main_v9 (F := Ideal) x1) h)
      = val_main_v49 (F := Ideal) x0 x1 x2 x3 x4 := by
  funext i
  obtain ⟨p, q, rfl⟩ : ∃ (p : Fin 50000) (q : Fin 64), i = ix2 p q := ⟨i 0, i 1, eq_ix2 i⟩
  rw [val_main_v49_apply, val_main_v48_apply, val_main_v47_apply, col47, normOut_again, Cert.Gcn.scaleRows_apply,
    Cert.RowOps.shapeCast_a_a1_apply, Ideal.mulf_def]

/-- Layer 1's dense stage with its cut-off at zero. -/
theorem dense1 (h : S50000.ShapeCasts S50000x1) (h' : S64.ShapeCasts S1x64) :
    Cert.Gcn.denseReluRows (a := 50000) (k := 64) (b := 64) (val_main_v25 (F := Ideal) x0 x1 x2)
        (shapeCast S50000x1 (val_main_v12 (F := Ideal) x2) h) x3 (shapeCast S1x64 x4 h')
      = val_main_v33 (F := Ideal) x0 x1 x2 x3 x4 := by
  funext i
  obtain ⟨p, q, rfl⟩ : ∃ (p : Fin 50000) (q : Fin 64), i = ix2 p q := ⟨i 0, i 1, eq_ix2 i⟩
  rw [val_main_v33_apply, val_main_v32_apply, val_main_v29_apply, val_main_v31_apply, val_main_v30_apply, row30,
    val_main_call2_v0_apply, val_main_call2_cst_apply, Cert.Gcn.denseReluRows_apply, Cert.Gcn.shapeCast_b_1b_apply,
    Ideal.maximumf_def, Ideal.addf_def]
  refine congrArg₂ max (congrArg (· + x4 (ix1 q)) (Finset.sum_congr rfl fun j _ => ?_)) rfl
  rw [lhs29, rhs29, val_main_v28_apply, val_main_v27_apply, val_main_v26_apply, col26, Cert.RowOps.shapeCast_a_a1_apply,
    Ideal.mulf_def]

/-- Layer 2's dense stage. -/
theorem dense2 (h : S50000.ShapeCasts S50000x1) (h' : S64.ShapeCasts S1x64) :
    Cert.Gcn.denseRows (a := 50000) (k := 64) (b := 64) (val_main_v59 (F := Ideal) x0 x1 x2 x3 x4)
        (shapeCast S50000x1 (val_main_v12 (F := Ideal) x2) h) x5 (shapeCast S1x64 x6 h')
      = val_main_v66 (F := Ideal) x0 x1 x2 x3 x4 x5 x6 := by
  funext i
  obtain ⟨p, q, rfl⟩ : ∃ (p : Fin 50000) (q : Fin 64), i = ix2 p q := ⟨i 0, i 1, eq_ix2 i⟩
  rw [val_main_v66_apply, val_main_v63_apply, val_main_v65_apply, val_main_v64_apply, row64, Cert.Gcn.denseRows_apply,
    Cert.Gcn.shapeCast_b_1b_apply, Ideal.addf_def]
  refine congrArg (· + x6 (ix1 q)) (Finset.sum_congr rfl fun j _ => ?_)
  rw [lhs63, rhs63, val_main_v62_apply, val_main_v61_apply, val_main_v60_apply, col60, normIn_again,
    Cert.RowOps.shapeCast_a_a1_apply, Ideal.mulf_def]

end Cert.ReferenceIdeal.Layers

end
-- ==== Proof.HostChain.lean ====
/-
  The host operations the two programs share, named once: the degree normalisation (count the edges at each node, clip
  at one, raise to the power `-1/2`) and the aggregate (gather the rows along the edges, negative indices counted from the
  end, and add them up per destination). The kernel program applies them between its regions, the reference between its
  row-wise products: the same operations on the same operands, so each is the reference's own stage.
-/
import proofs.«157872_j43009802502553_1_alg».proof.KernelIdeal
import proofs.«157872_j43009802502553_1_alg».proof.Proof.Gen.KernelIdeal
import proofs.«157872_j43009802502553_1_alg».proof.Proof.Gen.ReferenceIdeal.Read

set_option maxRecDepth 16384

noncomputable section

namespace Cert.KernelIdeal.Host

open Cert.KernelIdeal Cert.KernelIdeal.Gen Idealize.ShloMosaic Idealize.ShloMosaic.TcCoe
open Cert.ReferenceIdeal.Read

/-- The clipped degree of each node to the power `-1/2`: the number of edges whose index is the node, at least one. -/
def normOf (idx : Vec Ideal S800000 .i32) : Vec Ideal S50000 .f32 :=
  Host.powf (F := Ideal)
    (maximumf (broadcastInDim S50000 ![] bcast_S_S50000 (id (constant (F := Ideal) S_ .f32 0x3F800000#32)))
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 idx)
        (broadcastInDim S800000 ![] bcast_S_S800000 (constant (F := Ideal) S_ .f32 0x3F800000#32))))
    (broadcastInDim S50000 ![] bcast_S_S50000 (constant (F := Ideal) S_ .f32 0xBF000000#32))

/-- The rows of `h` gathered along the edges' sources and added up at the edges' destinations. -/
def aggregate (h : Vec Ideal S50000x64 .f32) (src dst : Vec Ideal S800000 .i32) : Vec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The two programs' records of the degree count's scatter, of the gather and of the aggregate's scatter are the same. -/
theorem rec_count : scatter_S50000_S800000x1_S800000_n_0_0_1 = Cert.ReferenceIdeal.scatter_S50000_S800000x1_S800000_n_0_0_1 := rfl
theorem rec_gather : gather_S50000x64_S800000x1_S800000x64_1_0_n_n_0_1_164 = Cert.ReferenceIdeal.gather_S50000x64_S800000x1_S800000x64_1_0_n_n_0_1_164 := rfl
theorem rec_sum : scatter_S50000x64_S800000x1_S800000x64_1_0_0_1 = Cert.ReferenceIdeal.scatter_S50000x64_S800000x1_S800000x64_1_0_0_1 := rfl

/-- The source-side normalisation is the reference's. -/
theorem normOf_out (x1 : Vec Ideal S800000 .i32) : normOf x1 = val_main_v9 (F := Ideal) x1 := by
  unfold normOf val_main_v9 val_main_v7 val_main_v8 val_main_cst_3 val_main_call0_v1 val_main_call0_v0 val_main_cst_2
    val_main_v3 val_main_v1 val_main_cst_0 val_main_v2 val_main_v0 val_main_cst
  rw [rec_count]

/-- The destination-side normalisation is the reference's. -/
theorem normOf_in (x2 : Vec Ideal S800000 .i32) : normOf x2 = val_main_v12 (F := Ideal) x2 := by
  unfold normOf val_main_v12 val_main_v10 val_main_v11 val_main_cst_5 val_main_call1_v1 val_main_call1_v0 val_main_cst_4
    val_main_v6 val_main_v4 val_main_cst_1 val_main_v5 val_main_v0 val_main_cst
  rw [rec_count]

/-- The first aggregate is the reference's. -/
theorem aggregate_first (x0 : Vec Ideal S50000x64 .f32) (x1 x2 : Vec Ideal S800000 .i32) :
    aggregate (val_main_v15 (F := Ideal) x0 x1) x1 x2 = val_main_v25 (F := Ideal) x0 x1 x2 := by
  unfold aggregate val_main_v25 val_main_v23 val_main_cst_7 val_main_v24 val_main_v22 val_main_v21 val_main_v20 val_main_v19
    val_main_v18 val_main_c_6 val_main_v17 val_main_v16 val_main_c
  rw [rec_gather, rec_sum]

/-- The second aggregate is the reference's. -/
theorem aggregate_second (x0 : Vec Ideal S50000x64 .f32) (x1 x2 : Vec Ideal S800000 .i32) (x3 : Vec Ideal S64x64 .f32)
    (x4 : Vec Ideal S64 .f32) :
    aggregate (val_main_v49 (F := Ideal) x0 x1 x2 x3 x4) x1 x2 = val_main_v59 (F := Ideal) x0 x1 x2 x3 x4 := by
  unfold aggregate val_main_v59 val_main_v57 val_main_cst_17 val_main_v58 val_main_v56 val_main_v55 val_main_v54 val_main_v53
    val_main_v52 val_main_c_16 val_main_v51 val_main_v50 val_main_c_15
  rw [rec_gather, rec_sum]

end Cert.KernelIdeal.Host

end
-- ==== Proof.HostReads.lean ====
/-
  What each host stretch of the kernel program leaves in the buffers the regions read, as a function of what the stretch
  finds: for any contents `V` of the buffers before it.

  The first stretch counts the edges at each node; the two `clip` calls take the maximum with one; the stretches after
  them raise to the power `-1/2`; the last one before region 0 keeps the two normalisations as columns and the biases as
  one-row arrays. The stretches after regions 0 and 2 gather and add up (`aggregate`).
-/
import proofs.«157872_j43009802502553_1_alg».proof.Proof.Gen.KernelIdeal.Launch
import proofs.«157872_j43009802502553_1_alg».proof.Proof.HostChain
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable (V : Valuation τ sig (Elt Ideal))

/-- The number of edges at each node: ones added up at the edges' indices, from zero. -/
def countOf (idx : Vec Ideal S800000 .i32) : Vec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 idx)
    (broadcastInDim S800000 ![] bcast_S_S800000 (constant (F := Ideal) S_ .f32 0x3F800000#32))

/-- The normalisation is the count, clipped at one, to the power `-1/2`. -/
theorem normOf_eq (idx : Vec Ideal S800000 .i32) :
    normOf idx = Host.powf (F := Ideal)
      (maximumf (broadcastInDim S50000 ![] bcast_S_S50000 (id (constant (F := Ideal) S_ .f32 0x3F800000#32))) (countOf idx))
      (broadcastInDim S50000 ![] bcast_S_S50000 (constant (F := Ideal) S_ .f32 0xBF000000#32)) := by
  unfold normOf countOf; rfl

/-! ## The stretch that counts -/

theorem count_src : StableHlo.after hostOps0 V (Proc.devRef .tc main_v3) = countOf (V (Proc.devRef .tc main_arg1)) := by
  dsimp only [hostOps0]; after_results_simp <;> (unfold countOf; rfl)
theorem count_dst : StableHlo.after hostOps0 V (Proc.devRef .tc main_v6) = countOf (V (Proc.devRef .tc main_arg2)) := by
  dsimp only [hostOps0]; after_results_simp <;> (unfold countOf; rfl)
theorem count_one : StableHlo.after hostOps0 V (Proc.devRef .tc main_cst_2) = constant (F := Ideal) S_ .f32 0x3F800000#32 := by
  dsimp only [hostOps0]; after_results_simp <;> rfl

/-! ## The first clip -/

theorem clip1 : (StableHlo.after hostOps0_1 V (Proc.devRef .tc main_v7) : Vec Ideal S50000 .f32)
    = maximumf (F := Ideal) (φ := .f32) (broadcastInDim S50000 ![] bcast_S_S50000 (id (V (Proc.devRef .tc main_cst_2) : Vec Ideal S_ .f32)))
        (V (Proc.devRef .tc main_v3) : Vec Ideal S50000 .f32) := by
  dsimp only [hostOps0_1]; after_results_simp <;> rfl
theorem clip1_dst : StableHlo.after hostOps0_1 V (Proc.devRef .tc main_v6) = V (Proc.devRef .tc main_v6) := by
  dsimp only [hostOps0_1]; after_results_simp <;> rfl

/-! ## The first power -/

theorem pow1 : StableHlo.after hostOps0_2 V (Proc.devRef .tc main_v9)
    = Host.powf (F := Ideal) (V (Proc.devRef .tc main_v7))
        (broadcastInDim S50000 ![] bcast_S_S50000 (constant (F := Ideal) S_ .f32 0xBF000000#32)) := by
  dsimp only [hostOps0_2]; after_results_simp <;> rfl
theorem pow1_one : StableHlo.after hostOps0_2 V (Proc.devRef .tc main_cst_4) = constant (F := Ideal) S_ .f32 0x3F800000#32 := by
  dsimp only [hostOps0_2]; after_results_simp <;> rfl
theorem pow1_dst : StableHlo.after hostOps0_2 V (Proc.devRef .tc main_v6) = V (Proc.devRef .tc main_v6) := by
  dsimp only [hostOps0_2]; after_results_simp <;> rfl

/-! ## The second clip -/

theorem clip2 : (StableHlo.after hostOps0_3 V (Proc.devRef .tc main_v10) : Vec Ideal S50000 .f32)
    = maximumf (F := Ideal) (φ := .f32) (broadcastInDim S50000 ![] bcast_S_S50000 (id (V (Proc.devRef .tc main_cst_4) : Vec Ideal S_ .f32)))
        (V (Proc.devRef .tc main_v6) : Vec Ideal S50000 .f32) := by
  dsimp only [hostOps0_3]; after_results_simp <;> rfl
theorem clip2_src : StableHlo.after hostOps0_3 V (Proc.devRef .tc main_v9) = V (Proc.devRef .tc main_v9) := by
  dsimp only [hostOps0_3]; after_results_simp <;> rfl

/-! ## The second power, the columns and the one-row biases -/

theorem col_src : StableHlo.after hostOps0_4 V (Proc.devRef .tc main_v13)
    = shapeCast S50000x1 (V (Proc.devRef .tc main_v9)) shapeCasts_S50000_S50000x1 := by
  dsimp only [hostOps0_4]; after_results_simp <;> rfl
theorem col_dst : StableHlo.after hostOps0_4 V (Proc.devRef .tc main_v14)
    = shapeCast S50000x1 (Host.powf (F := Ideal) (V (Proc.devRef .tc main_v10))
        (broadcastInDim S50000 ![] bcast_S_S50000 (constant (F := Ideal) S_ .f32 0xBF000000#32))) shapeCasts_S50000_S50000x1 := by
  dsimp only [hostOps0_4]; after_results_simp <;> rfl
theorem row_b1 : StableHlo.after hostOps0_4 V (Proc.devRef .tc main_v15)
    = shapeCast S1x64 (V (Proc.devRef .tc main_arg4)) shapeCasts_S64_S1x64 := by
  dsimp only [hostOps0_4]; after_results_simp <;> rfl
theorem row_b2 : StableHlo.after hostOps0_4 V (Proc.devRef .tc main_v16)
    = shapeCast S1x64 (V (Proc.devRef .tc main_arg6)) shapeCasts_S64_S1x64 := by
  dsimp only [hostOps0_4]; after_results_simp <;> rfl

/-! ## The aggregates -/

theorem agg1 : StableHlo.after hostOps1 V (Proc.devRef .tc main_v27)
    = aggregate (V (Proc.devRef .tc main_v17)) (V (Proc.devRef .tc main_arg1)) (V (Proc.devRef .tc main_arg2)) := by
  dsimp only [hostOps1]; after_results_simp <;> (unfold aggregate; rfl)
theorem agg2 : StableHlo.after hostOps3 V (Proc.devRef .tc main_v39)
    = aggregate (V (Proc.devRef .tc main_v29)) (V (Proc.devRef .tc main_arg1)) (V (Proc.devRef .tc main_arg2)) := by
  dsimp only [hostOps3]; after_results_simp <;> (unfold aggregate; rfl)

end Cert.KernelIdeal.Host

end
-- ==== Proof.Scale0.lean ====
/-
  Region 0 (a row-scaling kernel over ten blocks of 5000 rows): whatever the region finds in its arrays, it leaves its
  output array at `scaleRows` of its two input arrays.

  Point `t` reads rows `5000·t … 5000·t + 4999` of both inputs and writes the same rows of the output; the body's value at
  `(p, q)` of the block is the block's entry times the column's entry of row `p`; the ten blocks tile the 50000 rows.
-/
import proofs.«157872_j43009802502553_1_alg».proof.Proof.Gen.KernelIdeal.Frame
import proofs.«157872_j43009802502553_1_alg».proof.Proof.Layers
import Idealize.ShloMosaic.Lib.Pipeline.Value

set_option maxRecDepth 16384

noncomputable section

open scoped BigOperators

namespace Cert.KernelIdeal.Scale0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value on one block, at `(p, q)`. -/
theorem pay_apply (v0 : Vec Ideal S5000x64 .f32) (v1 : Vec Ideal S5000x1 .f32) (p : Fin 5000) (q : Fin 64) :
    k0_pay1 (F := Ideal) v0 v1 (ix2 p q) = v0 (ix2 p q) * v1 (ix2 p (0 : Fin 1)) := by
  unfold k0_pay1
  first
    | exact Cert.Gcn.scaleBody_apply v0 v1 _ _ p q
    | exact Cert.Gcn.scaleBodyCast_apply v0 v1 _ _ _ p q

/-- The printed index maps over the grid: all three windows sit on block row `t`, block column `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The rows the region scales, as it finds them. -/
abbrev xarr (c : Dev nD) : Vec Ideal S50000x64 .f32 := V c main_arg0
/-- The column it scales them by, as it finds it. -/
abbrev narr (c : Dev nD) : Vec Ideal S50000x1 .f32 := V c main_v13

/-- What the output array ends holding. -/
abbrev G (c : Dev nD) : Buf (Elt Ideal) ((c : Thread nD τ).loc main_v17) :=
  Cert.Gcn.scaleRows (a := 50000) (b := 64) (xarr V c) (narr V c)

/-- What point `t` writes back is block `t` of `G`. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 (F := Ideal) V c).after 2 t) = _
  rw [after0_2]
  unfold out0_2
  rw [View.canon_unit_zero hz]
  simp only [View.ld_unit_zero (S := S5000x64) hz, View.ld_unit_zero (S := S5000x1) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply (iblk0 V c 0 t) (iblk0 V c 1 t) p q).trans ?_
  show xarr V c (((cfg0.win 0).blk t).view.emb (ix2 p q)) * narr V c (((cfg0.win 1).blk t).view.emb (ix2 p (0 : Fin 1)))
      = xarr V c (((cfg0.win 2).blk t).view.emb (ix2 p q))
        * narr V c (ix2 (n0 := 50000) ((((cfg0.win 2).blk t).view.emb (ix2 p q)) 0) (0 : Fin 1))
  have h0 : ((cfg0.win 0).blk t).view.emb (ix2 p q) = ((cfg0.win 2).blk t).view.emb (ix2 p q) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * q.val = win0_2.index t (1 : Fin 2) * 64 + 1 * q.val; omega
  have h1 : ((cfg0.win 1).blk t).view.emb (ix2 p (0 : Fin 1))
      = ix2 (n0 := 50000) ((((cfg0.win 2).blk t).view.emb (ix2 p q)) 0) (0 : Fin 1) := by
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  rw [h0, h1]

/-- An index of the output array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v17).slice (win0_2.rect t)).set ↔ _
  rw [View.set_slice_whole, Rect.mem_set_unit]
  exact Iff.rfl

/-- Every row of the output is in the block of the point `row / 5000`. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region. -/
theorem final (c : Dev nD) : (dat0 (F := Ideal) V c).arrAt 2 cfg0.N = G V c :=
  (dat0 (F := Ideal) V c).arrAt_eq_of_cover 2 (G V c) (fun t _ => flushed_eq V c t) (cover)

end Cert.KernelIdeal.Scale0

end
-- ==== Proof.Dense1.lean ====
/-
  Region 1 (a dense layer over ten blocks of 5000 rows): whatever the region finds in its arrays, it leaves its output
  array at `denseReluRows` of its four input arrays.

  Point `t` reads rows `5000·t … 5000·t + 4999` of the aggregated features and of the normalising column, the whole
  weight matrix and the whole bias row, and writes the same rows of the output; the body's value at `(p, q)` of the
  block is the sum over `j` of the scaled entry `(p, j)` times the weight `(j, q)`, plus the bias at `q`, cut off below at
  zero; the ten blocks tile the 50000 rows.
-/
import proofs.«157872_j43009802502553_1_alg».proof.Proof.Gen.KernelIdeal.Frame
import proofs.«157872_j43009802502553_1_alg».proof.Proof.Layers
import Idealize.ShloMosaic.Lib.Pipeline.Value

set_option maxRecDepth 16384

noncomputable section

open scoped BigOperators

namespace Cert.KernelIdeal.Dense1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value on one block, at `(p, q)`. -/
theorem pay_apply (v0 : Vec Ideal S5000x64 .f32) (v2 : Vec Ideal S5000x1 .f32) (v7 : Vec Ideal S64x64 .f32)
    (v10 : Vec Ideal S1x64 .f32) (p : Fin 5000) (q : Fin 64) :
    k1_pay1 (F := Ideal) v0 v2 v7 v10 (ix2 p q)
      = max ((∑ j : Fin 64, (v0 (ix2 p j) * v2 (ix2 p (0 : Fin 1))) * v7 (ix2 j q)) + v10 (ix2 (0 : Fin 1) q))
          (Ideal.ofBits .f32 0x00000000#32) := by
  unfold k1_pay1
  rw [maximumf_apply]
  refine congrArg₂ max ?_ rfl
  exact Cert.Gcn.denseBody_apply v0 v2 v7 v10 _ _ _ _ _ _ _ p q

/-- The printed index maps over the grid: the row windows sit on block row `t`, the weights and the bias on their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated rows, the normalising column, the weights and the bias row, as the region finds them. -/
abbrev xarr (c : Dev nD) : Vec Ideal S50000x64 .f32 := V c main_v27
abbrev narr (c : Dev nD) : Vec Ideal S50000x1 .f32 := V c main_v14
abbrev warr (c : Dev nD) : Vec Ideal S64x64 .f32 := V c main_arg3
abbrev barr (c : Dev nD) : Vec Ideal S1x64 .f32 := V c main_v15

/-- What the output array ends holding. -/
abbrev G (c : Dev nD) : Buf (Elt Ideal) ((c : Thread nD τ).loc main_v28) :=
  Cert.Gcn.denseReluRows (a := 50000) (k := 64) (b := 64) (xarr V c) (narr V c) (warr V c) (barr V c)

/-- A row block's entry `(p, j)` is the array's entry of row `5000·t + p`. -/
theorem x_blk (c : Dev nD) (t : Fin cfg1.N) (p : Fin 5000) (q j : Fin 64) :
    iblk1 V c 0 t (ix2 p j) = xarr V c (ix2 (n0 := 50000) ((((cfg1.win 4).blk t).view.emb (ix2 p q)) 0) j) := by
  obtain ⟨e0, e1, e2, e3, e4, e5, e6, e7, e8, e9⟩ := idx_facts t
  show xarr V c (((cfg1.win 0).blk t).view.emb (ix2 p j)) = _
  refine congrArg (xarr V c) (funext fun a => Fin.ext ?_)
  match a with
  | ⟨0, _⟩ => show win1_0.index t (0 : Fin 2) * 5000 + 1 * p.val = win1_4.index t (0 : Fin 2) * 5000 + 1 * p.val; omega
  | ⟨1, _⟩ => show win1_0.index t (1 : Fin 2) * 64 + 1 * j.val = j.val; omega

/-- The column block's entry `(p, 0)` is the column's entry of row `5000·t + p`. -/
theorem n_blk (c : Dev nD) (t : Fin cfg1.N) (p : Fin 5000) (q : Fin 64) :
    iblk1 V c 1 t (ix2 p (0 : Fin 1)) = narr V c (ix2 (n0 := 50000) ((((cfg1.win 4).blk t).view.emb (ix2 p q)) 0) (0 : Fin 1)) := by
  obtain ⟨e0, e1, e2, e3, e4, e5, e6, e7, e8, e9⟩ := idx_facts t
  show narr V c (((cfg1.win 1).blk t).view.emb (ix2 p (0 : Fin 1))) = _
  refine congrArg (narr V c) (funext fun a => Fin.ext ?_)
  match a with
  | ⟨0, _⟩ => show win1_1.index t (0 : Fin 2) * 5000 + 1 * p.val = win1_4.index t (0 : Fin 2) * 5000 + 1 * p.val; omega
  | ⟨1, _⟩ => show win1_1.index t (1 : Fin 2) * 1 + 1 * 0 = 0; omega

/-- The weights' one block is the weight matrix. -/
theorem w_blk (c : Dev nD) (t : Fin cfg1.N) (p : Fin 5000) (q j : Fin 64) :
    iblk1 V c 2 t (ix2 j q) = warr V c (ix2 (n1 := 64) j ((((cfg1.win 4).blk t).view.emb (ix2 p q)) 1)) := by
  obtain ⟨e0, e1, e2, e3, e4, e5, e6, e7, e8, e9⟩ := idx_facts t
  show warr V c (((cfg1.win 2).blk t).view.emb (ix2 j q)) = _
  refine congrArg (warr V c) (funext fun a => Fin.ext ?_)
  match a with
  | ⟨0, _⟩ => show win1_2.index t (0 : Fin 2) * 64 + 1 * j.val = j.val; omega
  | ⟨1, _⟩ => show win1_2.index t (1 : Fin 2) * 64 + 1 * q.val = win1_4.index t (1 : Fin 2) * 64 + 1 * q.val; omega

/-- The bias' one block is the bias row. -/
theorem b_blk (c : Dev nD) (t : Fin cfg1.N) (p : Fin 5000) (q : Fin 64) :
    iblk1 V c 3 t (ix2 (0 : Fin 1) q) = barr V c (ix2 (n1 := 64) (0 : Fin 1) ((((cfg1.win 4).blk t).view.emb (ix2 p q)) 1)) := by
  obtain ⟨e0, e1, e2, e3, e4, e5, e6, e7, e8, e9⟩ := idx_facts t
  show barr V c (((cfg1.win 3).blk t).view.emb (ix2 (0 : Fin 1) q)) = _
  refine congrArg (barr V c) (funext fun a => Fin.ext ?_)
  match a with
  | ⟨0, _⟩ => show win1_3.index t (0 : Fin 2) * 1 + 1 * 0 = 0; omega
  | ⟨1, _⟩ => show win1_3.index t (1 : Fin 2) * 64 + 1 * q.val = win1_4.index t (1 : Fin 2) * 64 + 1 * q.val; omega

/-- What point `t` writes back is block `t` of `G`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz]
  simp only [View.ld_unit_zero (S := S5000x64) hz, View.ld_unit_zero (S := S5000x1) hz, View.ld_unit_zero (S := S64x64) hz,
    View.ld_unit_zero (S := S1x64) hz]
  funext y
  obtain ⟨p, q, rfl⟩ : ∃ (p : Fin 5000) (q : Fin 64), y = ix2 p q := ⟨y 0, y 1, eq_ix2 y⟩
  refine (pay_apply (iblk1 V c 0 t) (iblk1 V c 1 t) (iblk1 V c 2 t) (iblk1 V c 3 t) p q).trans ?_
  show _ = max ((∑ j : Fin 64, (xarr V c (ix2 (n0 := 50000) ((((cfg1.win 4).blk t).view.emb (ix2 p q)) 0) j)
        * narr V c (ix2 (n0 := 50000) ((((cfg1.win 4).blk t).view.emb (ix2 p q)) 0) (0 : Fin 1)))
        * warr V c (ix2 (n1 := 64) j ((((cfg1.win 4).blk t).view.emb (ix2 p q)) 1)))
      + barr V c (ix2 (n1 := 64) (0 : Fin 1) ((((cfg1.win 4).blk t).view.emb (ix2 p q)) 1))) (Ideal.ofBits .f32 0x00000000#32)
  rw [n_blk V c t p q, b_blk V c t p q]
  refine congrArg₂ max (congrArg (· + _) (Finset.sum_congr rfl fun j _ => ?_)) rfl
  rw [x_blk V c t p q j, w_blk V c t p q j]

/-- An index of the output array is in point `t`'s block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v28).slice (win1_4.rect t)).set ↔ _
  rw [View.set_slice_whole, Rect.mem_set_unit]
  exact Iff.rfl

/-- Every row of the output is in the block of the point `row / 5000`. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨e0, e1, e2, e3, e4, e5, e6, e7, e8, e9⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The output array after the region. -/
theorem final (c : Dev nD) : (dat1 (F := Ideal) V c).arrAt 4 cfg1.N = G V c :=
  (dat1 (F := Ideal) V c).arrAt_eq_of_cover 4 (G V c) (fun t _ => flushed_eq V c t) (cover)

end Cert.KernelIdeal.Dense1

end
-- ==== Proof.Scale2.lean ====
/-
  Region 2 (a row-scaling kernel over ten blocks of 5000 rows): whatever the region finds in its arrays, it leaves its
  output array at `scaleRows` of its two input arrays.

  Point `t` reads rows `5000·t … 5000·t + 4999` of both inputs and writes the same rows of the output; the body's value at
  `(p, q)` of the block is the block's entry times the column's entry of row `p`; the ten blocks tile the 50000 rows.
-/
import proofs.«157872_j43009802502553_1_alg».proof.Proof.Gen.KernelIdeal.Frame
import proofs.«157872_j43009802502553_1_alg».proof.Proof.Layers
import Idealize.ShloMosaic.Lib.Pipeline.Value

set_option maxRecDepth 16384

noncomputable section

open scoped BigOperators

namespace Cert.KernelIdeal.Scale2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value on one block, at `(p, q)`. -/
theorem pay_apply (v0 : Vec Ideal S5000x64 .f32) (v1 : Vec Ideal S5000x1 .f32) (p : Fin 5000) (q : Fin 64) :
    k2_pay1 (F := Ideal) v0 v1 (ix2 p q) = v0 (ix2 p q) * v1 (ix2 p (0 : Fin 1)) := by
  unfold k2_pay1
  first
    | exact Cert.Gcn.scaleBody_apply v0 v1 _ _ p q
    | exact Cert.Gcn.scaleBodyCast_apply v0 v1 _ _ _ p q

/-- The printed index maps over the grid: all three windows sit on block row `t`, block column `0`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The rows the region scales, as it finds them. -/
abbrev xarr (c : Dev nD) : Vec Ideal S50000x64 .f32 := V c main_v28
/-- The column it scales them by, as it finds it. -/
abbrev narr (c : Dev nD) : Vec Ideal S50000x1 .f32 := V c main_v13

/-- What the output array ends holding. -/
abbrev G (c : Dev nD) : Buf (Elt Ideal) ((c : Thread nD τ).loc main_v29) :=
  Cert.Gcn.scaleRows (a := 50000) (b := 64) (xarr V c) (narr V c)

/-- What point `t` writes back is block `t` of `G`. -/
theorem flushed_eq (c : Dev nD) (t : Fin cfg2.N) :
    (dat2 (F := Ideal) V c).flushed 2 t = ((cfg2.win 2).blk t).view.read (Elt Ideal) (G V c) := by
  show (cfg2.win 2).cut (grid2.coords t) ((dat2 (F := Ideal) V c).after 2 t) = _
  rw [after2_2]
  unfold out2_2
  rw [View.canon_unit_zero hz]
  simp only [View.ld_unit_zero (S := S5000x64) hz, View.ld_unit_zero (S := S5000x1) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply (iblk2 V c 0 t) (iblk2 V c 1 t) p q).trans ?_
  show xarr V c (((cfg2.win 0).blk t).view.emb (ix2 p q)) * narr V c (((cfg2.win 1).blk t).view.emb (ix2 p (0 : Fin 1)))
      = xarr V c (((cfg2.win 2).blk t).view.emb (ix2 p q))
        * narr V c (ix2 (n0 := 50000) ((((cfg2.win 2).blk t).view.emb (ix2 p q)) 0) (0 : Fin 1))
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * q.val = win2_2.index t (1 : Fin 2) * 64 + 1 * q.val; omega
  have h1 : ((cfg2.win 1).blk t).view.emb (ix2 p (0 : Fin 1))
      = ix2 (n0 := 50000) ((((cfg2.win 2).blk t).view.emb (ix2 p q)) 0) (0 : Fin 1) := by
    funext a; apply Fin.ext
    match a with
    | ⟨0, _⟩ => show win2_1.index t (0 : Fin 2) * 5000 + 1 * p.val = win2_2.index t (0 : Fin 2) * 5000 + 1 * p.val; omega
    | ⟨1, _⟩ => show win2_1.index t (1 : Fin 2) * 1 + 1 * 0 = 0; omega
  rw [h0, h1]

/-- An index of the output array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v29).slice (win2_2.rect t)).set ↔ _
  rw [View.set_slice_whole, Rect.mem_set_unit]
  exact Iff.rfl

/-- Every row of the output is in the block of the point `row / 5000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region. -/
theorem final (c : Dev nD) : (dat2 (F := Ideal) V c).arrAt 2 cfg2.N = G V c :=
  (dat2 (F := Ideal) V c).arrAt_eq_of_cover 2 (G V c) (fun t _ => flushed_eq V c t) (cover)

end Cert.KernelIdeal.Scale2

end
-- ==== Proof.Dense3.lean ====
/-
  Region 3 (the last dense layer over ten blocks of 5000 rows, with no cut-off): whatever the region finds in its arrays,
  it leaves its output array at `denseRows` of its four input arrays.

  Point `t` reads rows `5000·t … 5000·t + 4999` of the aggregated features and of the normalising column, the whole
  weight matrix and the whole bias row, and writes the same rows of the output; the body's value at `(p, q)` of the
  block is the sum over `j` of the scaled entry `(p, j)` times the weight `(j, q)`, plus the bias at `q`;
  the ten blocks tile the 50000 rows.
-/
import proofs.«157872_j43009802502553_1_alg».proof.Proof.Gen.KernelIdeal.Frame
import proofs.«157872_j43009802502553_1_alg».proof.Proof.Layers
import Idealize.ShloMosaic.Lib.Pipeline.Value

set_option maxRecDepth 16384

noncomputable section

open scoped BigOperators

namespace Cert.KernelIdeal.Dense3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value on one block, at `(p, q)`. -/
theorem pay_apply (v0 : Vec Ideal S5000x64 .f32) (v2 : Vec Ideal S5000x1 .f32) (v7 : Vec Ideal S64x64 .f32)
    (v10 : Vec Ideal S1x64 .f32) (p : Fin 5000) (q : Fin 64) :
    k3_pay1 (F := Ideal) v0 v2 v7 v10 (ix2 p q)
      = (∑ j : Fin 64, (v0 (ix2 p j) * v2 (ix2 p (0 : Fin 1))) * v7 (ix2 j q)) + v10 (ix2 (0 : Fin 1) q) := by
  unfold k3_pay1
  exact Cert.Gcn.denseBody_apply v0 v2 v7 v10 _ _ _ _ _ _ _ p q

/-- The printed index maps over the grid: the row windows sit on block row `t`, the weights and the bias on their one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregated rows, the normalising column, the weights and the bias row, as the region finds them. -/
abbrev xarr (c : Dev nD) : Vec Ideal S50000x64 .f32 := V c main_v39
abbrev narr (c : Dev nD) : Vec Ideal S50000x1 .f32 := V c main_v14
abbrev warr (c : Dev nD) : Vec Ideal S64x64 .f32 := V c main_arg5
abbrev barr (c : Dev nD) : Vec Ideal S1x64 .f32 := V c main_v16

/-- What the output array ends holding. -/
abbrev G (c : Dev nD) : Buf (Elt Ideal) ((c : Thread nD τ).loc main_v40) :=
  Cert.Gcn.denseRows (a := 50000) (k := 64) (b := 64) (xarr V c) (narr V c) (warr V c) (barr V c)

/-- A row block's entry `(p, j)` is the array's entry of row `5000·t + p`. -/
theorem x_blk (c : Dev nD) (t : Fin cfg3.N) (p : Fin 5000) (q j : Fin 64) :
    iblk3 V c 0 t (ix2 p j) = xarr V c (ix2 (n0 := 50000) ((((cfg3.win 4).blk t).view.emb (ix2 p q)) 0) j) := by
  obtain ⟨e0, e1, e2, e3, e4, e5, e6, e7, e8, e9⟩ := idx_facts t
  show xarr V c (((cfg3.win 0).blk t).view.emb (ix2 p j)) = _
  refine congrArg (xarr V c) (funext fun a => Fin.ext ?_)
  match a with
  | ⟨0, _⟩ => show win3_0.index t (0 : Fin 2) * 5000 + 1 * p.val = win3_4.index t (0 : Fin 2) * 5000 + 1 * p.val; omega
  | ⟨1, _⟩ => show win3_0.index t (1 : Fin 2) * 64 + 1 * j.val = j.val; omega

/-- The column block's entry `(p, 0)` is the column's entry of row `5000·t + p`. -/
theorem n_blk (c : Dev nD) (t : Fin cfg3.N) (p : Fin 5000) (q : Fin 64) :
    iblk3 V c 1 t (ix2 p (0 : Fin 1)) = narr V c (ix2 (n0 := 50000) ((((cfg3.win 4).blk t).view.emb (ix2 p q)) 0) (0 : Fin 1)) := by
  obtain ⟨e0, e1, e2, e3, e4, e5, e6, e7, e8, e9⟩ := idx_facts t
  show narr V c (((cfg3.win 1).blk t).view.emb (ix2 p (0 : Fin 1))) = _
  refine congrArg (narr V c) (funext fun a => Fin.ext ?_)
  match a with
  | ⟨0, _⟩ => show win3_1.index t (0 : Fin 2) * 5000 + 1 * p.val = win3_4.index t (0 : Fin 2) * 5000 + 1 * p.val; omega
  | ⟨1, _⟩ => show win3_1.index t (1 : Fin 2) * 1 + 1 * 0 = 0; omega

/-- The weights' one block is the weight matrix. -/
theorem w_blk (c : Dev nD) (t : Fin cfg3.N) (p : Fin 5000) (q j : Fin 64) :
    iblk3 V c 2 t (ix2 j q) = warr V c (ix2 (n1 := 64) j ((((cfg3.win 4).blk t).view.emb (ix2 p q)) 1)) := by
  obtain ⟨e0, e1, e2, e3, e4, e5, e6, e7, e8, e9⟩ := idx_facts t
  show warr V c (((cfg3.win 2).blk t).view.emb (ix2 j q)) = _
  refine congrArg (warr V c) (funext fun a => Fin.ext ?_)
  match a with
  | ⟨0, _⟩ => show win3_2.index t (0 : Fin 2) * 64 + 1 * j.val = j.val; omega
  | ⟨1, _⟩ => show win3_2.index t (1 : Fin 2) * 64 + 1 * q.val = win3_4.index t (1 : Fin 2) * 64 + 1 * q.val; omega

/-- The bias' one block is the bias row. -/
theorem b_blk (c : Dev nD) (t : Fin cfg3.N) (p : Fin 5000) (q : Fin 64) :
    iblk3 V c 3 t (ix2 (0 : Fin 1) q) = barr V c (ix2 (n1 := 64) (0 : Fin 1) ((((cfg3.win 4).blk t).view.emb (ix2 p q)) 1)) := by
  obtain ⟨e0, e1, e2, e3, e4, e5, e6, e7, e8, e9⟩ := idx_facts t
  show barr V c (((cfg3.win 3).blk t).view.emb (ix2 (0 : Fin 1) q)) = _
  refine congrArg (barr V c) (funext fun a => Fin.ext ?_)
  match a with
  | ⟨0, _⟩ => show win3_3.index t (0 : Fin 2) * 1 + 1 * 0 = 0; omega
  | ⟨1, _⟩ => show win3_3.index t (1 : Fin 2) * 64 + 1 * q.val = win3_4.index t (1 : Fin 2) * 64 + 1 * q.val; omega

/-- What point `t` writes back is block `t` of `G`. -/
theorem flushed_eq (c : Dev nD) (t : Fin cfg3.N) :
    (dat3 (F := Ideal) V c).flushed 4 t = ((cfg3.win 4).blk t).view.read (Elt Ideal) (G V c) := by
  show (cfg3.win 4).cut (grid3.coords t) ((dat3 (F := Ideal) V c).after 4 t) = _
  rw [after3_4]
  unfold out3_4
  rw [View.canon_unit_zero hz]
  simp only [View.ld_unit_zero (S := S5000x64) hz, View.ld_unit_zero (S := S5000x1) hz, View.ld_unit_zero (S := S64x64) hz,
    View.ld_unit_zero (S := S1x64) hz]
  funext y
  obtain ⟨p, q, rfl⟩ : ∃ (p : Fin 5000) (q : Fin 64), y = ix2 p q := ⟨y 0, y 1, eq_ix2 y⟩
  refine (pay_apply (iblk3 V c 0 t) (iblk3 V c 1 t) (iblk3 V c 2 t) (iblk3 V c 3 t) p q).trans ?_
  show _ = (∑ j : Fin 64, (xarr V c (ix2 (n0 := 50000) ((((cfg3.win 4).blk t).view.emb (ix2 p q)) 0) j)
        * narr V c (ix2 (n0 := 50000) ((((cfg3.win 4).blk t).view.emb (ix2 p q)) 0) (0 : Fin 1)))
        * warr V c (ix2 (n1 := 64) j ((((cfg3.win 4).blk t).view.emb (ix2 p q)) 1)))
      + barr V c (ix2 (n1 := 64) (0 : Fin 1) ((((cfg3.win 4).blk t).view.emb (ix2 p q)) 1))
  rw [n_blk V c t p q, b_blk V c t p q]
  refine congrArg (· + _) (Finset.sum_congr rfl fun j _ => ?_)
  rw [x_blk V c t p q j, w_blk V c t p q j]

/-- An index of the output array is in point `t`'s block iff each coordinate is in the block's range on its axis. -/
theorem mem_blk (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v40).slice (win3_4.rect t)).set ↔ _
  rw [View.set_slice_whole, Rect.mem_set_unit]
  exact Iff.rfl

/-- Every row of the output is in the block of the point `row / 5000`. -/
theorem cover (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨e0, e1, e2, e3, e4, e5, e6, e7, e8, e9⟩ := idx_facts t
  have ht : t.val = (i 0).val / 5000 := rfl
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The output array after the region. -/
theorem final (c : Dev nD) : (dat3 (F := Ideal) V c).arrAt 4 cfg3.N = G V c :=
  (dat3 (F := Ideal) V c).arrAt_eq_of_cover 4 (G V c) (fun t _ => flushed_eq V c t) (cover)

end Cert.KernelIdeal.Dense3

end
-- ==== Proof.Chain.lean ====
/-
  The kernel program's result as a function of its arguments: the contents of the buffers at each boundary between the
  host stretches and the four regions, followed from the launch to the return.

  Before region 0 the host computes the two degree normalisations (the reference's own terms) and keeps each as a
  column, and casts the two biases to one-row arrays. Region 0 leaves the scaled features (the reference's first
  product); the host stretch after it gathers them along the edges and adds them up per destination (the reference's
  aggregate, the same two operations on the same operands); region 1 leaves the first layer's output; region 2 its rows
  scaled; the next stretch aggregates again; region 3 leaves the second layer's output, which is the reference's result.
  A buffer that neither a stretch nor a region writes holds at every later boundary what it held before.
-/
import proofs.«157872_j43009802502553_1_alg».proof.Proof.Gen.KernelIdeal.Frame
import proofs.«157872_j43009802502553_1_alg».proof.Proof.Gen.ReferenceIdeal.Read
import proofs.«157872_j43009802502553_1_alg».proof.Proof.Layers
import proofs.«157872_j43009802502553_1_alg».proof.Proof.RefLayers
import proofs.«157872_j43009802502553_1_alg».proof.Proof.HostChain
import proofs.«157872_j43009802502553_1_alg».proof.Proof.HostReads
import proofs.«157872_j43009802502553_1_alg».proof.Proof.Scale0
import proofs.«157872_j43009802502553_1_alg».proof.Proof.Dense1
import proofs.«157872_j43009802502553_1_alg».proof.Proof.Scale2
import proofs.«157872_j43009802502553_1_alg».proof.Proof.Dense3
import proofs.«157872_j43009802502553_1_alg».proof.Proof.KernelRun
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read (val_main_v9 val_main_v12 val_main_v15 val_main_v25 val_main_v33 val_main_v49 val_main_v59 val_main_v66)

variable (m : (ℓ : Loc nD τ sig) → Buf (Elt Ideal) ℓ) (ρ : Dev nD → PrngReg) (c : Dev nD)

/-- The arguments as launched. -/
abbrev x0 : Vec Ideal S50000x64 .f32 := m ((c : Thread nD τ).loc main_arg0)
abbrev x1 : Vec Ideal S800000 .i32 := m ((c : Thread nD τ).loc main_arg1)
abbrev x2 : Vec Ideal S800000 .i32 := m ((c : Thread nD τ).loc main_arg2)
abbrev x3 : Vec Ideal S64x64 .f32 := m ((c : Thread nD τ).loc main_arg3)
abbrev x4 : Vec Ideal S64 .f32 := m ((c : Thread nD τ).loc main_arg4)
abbrev x5 : Vec Ideal S64x64 .f32 := m ((c : Thread nD τ).loc main_arg5)
abbrev x6 : Vec Ideal S64 .f32 := m ((c : Thread nD τ).loc main_arg6)

/-- The source-side and destination-side normalisations as columns, and the biases as one-row arrays. -/
abbrev colOut : Vec Ideal S50000x1 .f32 := shapeCast S50000x1 (val_main_v9 (F := Ideal) (x1 m c)) shapeCasts_S50000_S50000x1
abbrev colIn : Vec Ideal S50000x1 .f32 := shapeCast S50000x1 (val_main_v12 (F := Ideal) (x2 m c)) shapeCasts_S50000_S50000x1

/-- A buffer at launch holds the launch memory. -/
theorem at0 (b : Ref sig .tc) : W0 m ρ c (Proc.devRef .tc b) = m ((c : Thread nD τ).loc b) := rfl
abbrev row1 : Vec Ideal S1x64 .f32 := shapeCast S1x64 (x4 m c) shapeCasts_S64_S1x64
abbrev row2 : Vec Ideal S1x64 .f32 := shapeCast S1x64 (x6 m c) shapeCasts_S64_S1x64

/-- Reads a buffer after host stretches: every operation's result at its own buffer, any other buffer as before. -/
local macro "host_read" : tactic => `(tactic| (
  dsimp only [W10, W7, W5, W4, W3, W2, W1, hostOps0, hostOps0_1, hostOps0_2, hostOps0_3, hostOps0_4, hostOps1, hostOps3]
  after_results_simp))

/-! ## At region 0's entry -/

theorem at5_arg0 : W5 m ρ c (Proc.devRef .tc main_arg0) = x0 m c := by host_read <;> rfl
theorem at5_arg1 : W5 m ρ c (Proc.devRef .tc main_arg1) = x1 m c := by host_read <;> rfl
theorem at5_arg2 : W5 m ρ c (Proc.devRef .tc main_arg2) = x2 m c := by host_read <;> rfl
theorem at5_arg3 : W5 m ρ c (Proc.devRef .tc main_arg3) = x3 m c := by host_read <;> rfl
theorem at5_arg5 : W5 m ρ c (Proc.devRef .tc main_arg5) = x5 m c := by host_read <;> rfl
theorem at4_arg4 : W4 m ρ c (Proc.devRef .tc main_arg4) = x4 m c := by host_read <;> rfl
theorem at4_arg6 : W4 m ρ c (Proc.devRef .tc main_arg6) = x6 m c := by host_read <;> rfl
/-- The source-side normalisation, as the first power stretch leaves it and the second clip keeps it. -/
theorem norm_src : W4 m ρ c (Proc.devRef .tc main_v9) = val_main_v9 (F := Ideal) (x1 m c) := by
  rw [← Host.normOf_out, Host.normOf_eq]
  dsimp only [W4, W3, W2, W1]
  rw [Host.clip2_src, Host.pow1, Host.clip1, Host.count_one, Host.count_src, at0]
/-- The destination-side normalisation, before the last stretch raises it to its power. -/
theorem norm_dst : Host.powf (F := Ideal) (W4 m ρ c (Proc.devRef .tc main_v10))
      (broadcastInDim S50000 ![] bcast_S_S50000 (constant (F := Ideal) S_ .f32 0xBF000000#32))
    = val_main_v12 (F := Ideal) (x2 m c) := by
  rw [← Host.normOf_in, Host.normOf_eq]
  dsimp only [W4, W3, W2, W1]
  rw [Host.clip2, Host.pow1_one, Host.pow1_dst, Host.clip1_dst, Host.count_dst, at0]
theorem at5_v13 : W5 m ρ c (Proc.devRef .tc main_v13) = colOut m c :=
  (Host.col_src (W4 m ρ c)).trans
    (congrArg (fun n : Vec Ideal S50000 .f32 => shapeCast S50000x1 n shapeCasts_S50000_S50000x1) (norm_src m ρ c))
theorem at5_v14 : W5 m ρ c (Proc.devRef .tc main_v14) = colIn m c :=
  (Host.col_dst (W4 m ρ c)).trans
    (congrArg (fun n : Vec Ideal S50000 .f32 => shapeCast S50000x1 n shapeCasts_S50000_S50000x1) (norm_dst m ρ c))
theorem at5_v15 : W5 m ρ c (Proc.devRef .tc main_v15) = row1 m c :=
  (Host.row_b1 (W4 m ρ c)).trans (congrArg (fun b : Vec Ideal S64 .f32 => shapeCast S1x64 b shapeCasts_S64_S1x64) (at4_arg4 m ρ c))
theorem at5_v16 : W5 m ρ c (Proc.devRef .tc main_v16) = row2 m c :=
  (Host.row_b2 (W4 m ρ c)).trans (congrArg (fun b : Vec Ideal S64 .f32 => shapeCast S1x64 b shapeCasts_S64_S1x64) (at4_arg6 m ρ c))

/-! ## After region 0 -/

theorem at6_v17 : W6 m ρ c (Proc.devRef .tc main_v17) = val_main_v15 (F := Ideal) (x0 m c) (x1 m c) :=
  (W6_arr m ρ c 2).trans ((Scale0.final (V5 m ρ) c).trans
    ((congrArg₂ (Cert.Gcn.scaleRows (a := 50000) (b := 64)) (at5_arg0 m ρ c) (at5_v13 m ρ c)).trans
      (Cert.ReferenceIdeal.Layers.scale1 _ _ _)))
theorem at6_arg1 : W6 m ρ c (Proc.devRef .tc main_arg1) = x1 m c := (W6_of_ne m ρ c main_arg1 (by decide)).trans (at5_arg1 m ρ c)
theorem at6_arg2 : W6 m ρ c (Proc.devRef .tc main_arg2) = x2 m c := (W6_of_ne m ρ c main_arg2 (by decide)).trans (at5_arg2 m ρ c)
theorem at6_arg3 : W6 m ρ c (Proc.devRef .tc main_arg3) = x3 m c := (W6_of_ne m ρ c main_arg3 (by decide)).trans (at5_arg3 m ρ c)
theorem at6_arg5 : W6 m ρ c (Proc.devRef .tc main_arg5) = x5 m c := (W6_of_ne m ρ c main_arg5 (by decide)).trans (at5_arg5 m ρ c)
theorem at6_v13 : W6 m ρ c (Proc.devRef .tc main_v13) = colOut m c :=
  (W6_arr m ρ c 1).trans ((((dat0 (V5 m ρ) c).arrAt_in 1 rfl _).trans (A_eq0 (V5 m ρ) c 1)).trans (at5_v13 m ρ c))
theorem at6_v14 : W6 m ρ c (Proc.devRef .tc main_v14) = colIn m c := (W6_of_ne m ρ c main_v14 (by decide)).trans (at5_v14 m ρ c)
theorem at6_v15 : W6 m ρ c (Proc.devRef .tc main_v15) = row1 m c := (W6_of_ne m ρ c main_v15 (by decide)).trans (at5_v15 m ρ c)
theorem at6_v16 : W6 m ρ c (Proc.devRef .tc main_v16) = row2 m c := (W6_of_ne m ρ c main_v16 (by decide)).trans (at5_v16 m ρ c)

/-! ## At region 1's entry: the first aggregate -/

theorem at7_v27 : W7 m ρ c (Proc.devRef .tc main_v27) = val_main_v25 (F := Ideal) (x0 m c) (x1 m c) (x2 m c) :=
  (Host.agg1 (W6 m ρ c)).trans
    ((congr (congrArg₂ Host.aggregate (at6_v17 m ρ c) (at6_arg1 m ρ c)) (at6_arg2 m ρ c)).trans
      (Host.aggregate_first (x0 m c) (x1 m c) (x2 m c)))
theorem at7_arg1 : W7 m ρ c (Proc.devRef .tc main_arg1) = x1 m c := by host_read <;> exact at6_arg1 m ρ c
theorem at7_arg2 : W7 m ρ c (Proc.devRef .tc main_arg2) = x2 m c := by host_read <;> exact at6_arg2 m ρ c
theorem at7_arg3 : W7 m ρ c (Proc.devRef .tc main_arg3) = x3 m c := by host_read <;> exact at6_arg3 m ρ c
theorem at7_arg5 : W7 m ρ c (Proc.devRef .tc main_arg5) = x5 m c := by host_read <;> exact at6_arg5 m ρ c
theorem at7_v13 : W7 m ρ c (Proc.devRef .tc main_v13) = colOut m c := by host_read <;> exact at6_v13 m ρ c
theorem at7_v14 : W7 m ρ c (Proc.devRef .tc main_v14) = colIn m c := by host_read <;> exact at6_v14 m ρ c
theorem at7_v15 : W7 m ρ c (Proc.devRef .tc main_v15) = row1 m c := by host_read <;> exact at6_v15 m ρ c
theorem at7_v16 : W7 m ρ c (Proc.devRef .tc main_v16) = row2 m c := by host_read <;> exact at6_v16 m ρ c

/-! ## After region 1: the first layer's output -/

theorem at8_v28 : W8 m ρ c (Proc.devRef .tc main_v28)
    = val_main_v33 (F := Ideal) (x0 m c) (x1 m c) (x2 m c) (x3 m c) (x4 m c) :=
  (W8_arr m ρ c 4).trans ((Dense1.final (V7 m ρ) c).trans
    ((congr (congr (congrArg₂ (Cert.Gcn.denseReluRows (a := 50000) (k := 64) (b := 64)) (at7_v27 m ρ c) (at7_v14 m ρ c))
        (at7_arg3 m ρ c)) (at7_v15 m ρ c)).trans
      (Cert.ReferenceIdeal.Layers.dense1 _ _ _ _ _ _ _)))
theorem at8_arg1 : W8 m ρ c (Proc.devRef .tc main_arg1) = x1 m c := (W8_of_ne m ρ c main_arg1 (by decide)).trans (at7_arg1 m ρ c)
theorem at8_arg2 : W8 m ρ c (Proc.devRef .tc main_arg2) = x2 m c := (W8_of_ne m ρ c main_arg2 (by decide)).trans (at7_arg2 m ρ c)
theorem at8_arg5 : W8 m ρ c (Proc.devRef .tc main_arg5) = x5 m c := (W8_of_ne m ρ c main_arg5 (by decide)).trans (at7_arg5 m ρ c)
theorem at8_v13 : W8 m ρ c (Proc.devRef .tc main_v13) = colOut m c := (W8_of_ne m ρ c main_v13 (by decide)).trans (at7_v13 m ρ c)
theorem at8_v14 : W8 m ρ c (Proc.devRef .tc main_v14) = colIn m c :=
  (W8_arr m ρ c 1).trans ((((dat1 (V7 m ρ) c).arrAt_in 1 rfl _).trans (A_eq1 (V7 m ρ) c 1)).trans (at7_v14 m ρ c))
theorem at8_v16 : W8 m ρ c (Proc.devRef .tc main_v16) = row2 m c := (W8_of_ne m ρ c main_v16 (by decide)).trans (at7_v16 m ρ c)

/-! ## After region 2: its rows scaled -/

theorem at9_v29 : W9 m ρ c (Proc.devRef .tc main_v29)
    = val_main_v49 (F := Ideal) (x0 m c) (x1 m c) (x2 m c) (x3 m c) (x4 m c) :=
  (W9_arr m ρ c 2).trans ((Scale2.final (V8 m ρ) c).trans
    ((congrArg₂ (Cert.Gcn.scaleRows (a := 50000) (b := 64)) (at8_v28 m ρ c) (at8_v13 m ρ c)).trans
      (Cert.ReferenceIdeal.Layers.scale2 _ _ _ _ _ _)))
theorem at9_arg1 : W9 m ρ c (Proc.devRef .tc main_arg1) = x1 m c := (W9_of_ne m ρ c main_arg1 (by decide)).trans (at8_arg1 m ρ c)
theorem at9_arg2 : W9 m ρ c (Proc.devRef .tc main_arg2) = x2 m c := (W9_of_ne m ρ c main_arg2 (by decide)).trans (at8_arg2 m ρ c)
theorem at9_arg5 : W9 m ρ c (Proc.devRef .tc main_arg5) = x5 m c := (W9_of_ne m ρ c main_arg5 (by decide)).trans (at8_arg5 m ρ c)
theorem at9_v14 : W9 m ρ c (Proc.devRef .tc main_v14) = colIn m c := (W9_of_ne m ρ c main_v14 (by decide)).trans (at8_v14 m ρ c)
theorem at9_v16 : W9 m ρ c (Proc.devRef .tc main_v16) = row2 m c := (W9_of_ne m ρ c main_v16 (by decide)).trans (at8_v16 m ρ c)

/-! ## At region 3's entry: the second aggregate -/

theorem at10_v39 : W10 m ρ c (Proc.devRef .tc main_v39)
    = val_main_v59 (F := Ideal) (x0 m c) (x1 m c) (x2 m c) (x3 m c) (x4 m c) :=
  (Host.agg2 (W9 m ρ c)).trans
    ((congr (congrArg₂ Host.aggregate (at9_v29 m ρ c) (at9_arg1 m ρ c)) (at9_arg2 m ρ c)).trans
      (Host.aggregate_second (x0 m c) (x1 m c) (x2 m c) (x3 m c) (x4 m c)))
theorem at10_arg5 : W10 m ρ c (Proc.devRef .tc main_arg5) = x5 m c := by host_read <;> exact at9_arg5 m ρ c
theorem at10_v14 : W10 m ρ c (Proc.devRef .tc main_v14) = colIn m c := by host_read <;> exact at9_v14 m ρ c
theorem at10_v16 : W10 m ρ c (Proc.devRef .tc main_v16) = row2 m c := by host_read <;> exact at9_v16 m ρ c

/-! ## After region 3: the result -/

/-- The result buffer at the return holds the reference's result term of the arguments. -/
theorem result : W11 m ρ c (Proc.devRef .tc main_v40)
    = val_main_v66 (F := Ideal) (x0 m c) (x1 m c) (x2 m c) (x3 m c) (x4 m c) (x5 m c) (x6 m c) :=
  (W11_arr m ρ c 4).trans ((Dense3.final (V10 m ρ) c).trans
    ((congr (congr (congrArg₂ (Cert.Gcn.denseRows (a := 50000) (k := 64) (b := 64)) (at10_v39 m ρ c) (at10_v14 m ρ c))
        (at10_arg5 m ρ c)) (at10_v16 m ρ c)).trans
      (Cert.ReferenceIdeal.Layers.dense2 _ _ _ _ _ _ _ _ _)))

/-- The kernel program's run: every weakly fair execution terminates with the result array at the reference's result term
    of the launch contents of the arguments, and the arguments unchanged. -/
theorem run : θ_run defs (onTc (τ := τ) (main (F := Ideal))) ⟨m, fun _ => 0, ρ⟩ (fun r => ∀ c : Dev nD,
      r.2.mem ((c.tc : Thread nD τ).loc main_v40)
        = val_main_v66 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (Cert.KernelIdeal.Named.run_named (F := Ideal) m ρ)

end Cert.KernelIdeal.Chain

end
-- ==== Proof.lean ====
/-
  A two-layer graph convolution with symmetric degree normalisation, computed by four row-blocked kernels with the edge
  gather and the per-destination sums on the host between them, against the plain reference.

  Over the extended reals both programs compute, for each layer, `((A · (X ⊙ d_out)) ⊙ d_in) · W + b` (the first layer cut
  off below at zero), where `d_out`, `d_in` are the `-1/2` powers of the out- and in-degrees clipped at one, `⊙` scales
  row `p` by entry `p`, and `A ·` gathers rows along the edges and adds them up per destination. The two programs apply
  the same operations to the same operands in the same order: the degree counts, the clip, the power, the gather and the
  per-destination sum are the same host operations on both sides, and the kernels differ from the reference's host
  operations only in how a row-wise step is laid out (ten blocks of 5000 rows; the normalising vector kept as a column
  and spread inside the body; a narrowing of the matrix product's operands, which is the identity on extended reals; the
  product accumulated into zero, which is the plain sum over the inner index). Read at an index `(p, q)` each kernel's
  output is the reference's stage at `(p, q)`; no law of arithmetic beyond that reading is used, so the finiteness of the
  inputs is never opened.

  The word-level and idealised kernels' frames are the generated ones; the reference's frame is its generated run with the
  result dropped; the idealisation rewrote nothing, so `preserves` is trivial.
-/
import proofs.«157872_j43009802502553_1_alg».proof.Defs
import proofs.«157872_j43009802502553_1_alg».proof.Proof.Gen.Kernel
import proofs.«157872_j43009802502553_1_alg».proof.Proof.Gen.Kernel.Skeleton
import proofs.«157872_j43009802502553_1_alg».proof.Proof.Gen.Kernel.Launch
import proofs.«157872_j43009802502553_1_alg».proof.Proof.Gen.Kernel.Points
import proofs.«157872_j43009802502553_1_alg».proof.Proof.Gen.Kernel.Frame
import proofs.«157872_j43009802502553_1_alg».proof.Proof.Gen.KernelIdeal
import proofs.«157872_j43009802502553_1_alg».proof.Proof.Gen.KernelIdeal.Skeleton
import proofs.«157872_j43009802502553_1_alg».proof.Proof.Gen.KernelIdeal.Launch
import proofs.«157872_j43009802502553_1_alg».proof.Proof.Gen.KernelIdeal.Points
import proofs.«157872_j43009802502553_1_alg».proof.Proof.Gen.KernelIdeal.Frame
import proofs.«157872_j43009802502553_1_alg».proof.Proof.Gen.ReferenceIdeal
import proofs.«157872_j43009802502553_1_alg».proof.Proof.Gen.ReferenceIdeal.Run
import proofs.«157872_j43009802502553_1_alg».proof.Proof.Gen.ReferenceIdeal.Read
import proofs.«157872_j43009802502553_1_alg».proof.Proof.Gen.Pre_finite_inputs
import proofs.«157872_j43009802502553_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's result term of the arguments' launch contents: the kernel
    program by following its buffers from region to region, the reference by its run; the arguments agree. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v66_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
